-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) (main_arg1 : FVec F S4096x2048 .f32) (main_arg2 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  main_v13
-- ==== Kernel.lean ====
abbrev S4096x2048 : Shape := ⟨2, ![4096, 2048]⟩
abbrev S4096x1 : Shape := ⟨2, ![4096, 1]⟩
abbrev S256x2048 : Shape := ⟨2, ![256, 2048]⟩
abbrev S256x1 : Shape := ⟨2, ![256, 1]⟩
abbrev S256 : Shape := ⟨1, ![256]⟩
abbrev S1x1 : Shape := ⟨2, ![1, 1]⟩
abbrev S_ : Shape := ⟨0, ![]⟩

abbrev nBuf : Space → Nat
  | .hbm => 11
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x1, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x1, .f32⟩
  | .local _ .vmem, ⟨7, _⟩ => ⟨S256x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  slices_S4096x1_S1x1_4095_0 : S4096x1.Slices ![4095, 0] S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .f32 = 32 ∨ (Rect.block (s := S4096x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S4096x2048.size a
  hwx0_2 : ∀ i : grid0.Coords, EltTy.bits .f32 = 32 ∨ (Rect.block (s := S4096x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S4096x1.size a
  hwx0_3 : ∀ i : grid0.Coords, EltTy.bits .f32 = 32 ∨ (Rect.block (s := S4096x1) S256x1.size (cc0_transform_3 i) (hinb0_3 i)).WholeWords (EltTy.packing .f32)

variable [Facts₀]

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S_ : Shape := ⟨0, ![]⟩
abbrev S4096 : Shape := ⟨1, ![4096]⟩
abbrev S1 : Shape := ⟨1, ![1]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  reducesTo_S4096x2048_S4096_d1 : S4096x2048.ReducesTo [1] S4096
  h_S_ : 0 < S_.numel
  bcast_S_S4096 : S_.BroadcastsInDim S4096 (![] : Fin 0 → Fin S4096.rank)
  slices_S4096_S1_4095 : S4096.Slices ![4095] S1
  shapeCasts_S1_S_ : S1.ShapeCasts S_

variable [Facts₀]

class Facts : Prop extends Facts₀ where

variable [Facts]
-- ==== Proof.Spec.lean ====
/-
  The quantity both programs compute, written once on the extended reals.

  One sample is one row of the three [4096, 2048] arrays: means μ, variances σ, observations y. Its
  diagonal-Gaussian log-probability is

      ℓ = -½ · ( Σ_k ( (y_k − μ_k)² / σ_k + log σ_k ) + C ),        k over the 2048 lanes,

  where C is the one f32 word both programs carry for 2048 · log 2π, and -½ the word 0xBF000000. The
  program's scalar result is the LAST sample's ℓ, negated, divided by 2048 and then by 4096.

  Nothing here uses a law of the extended reals beyond 0 + s = s: the two programs apply the same
  operations in the same order to the same operands, and differ only in how the rows are tiled and in
  which spelling of quotient, logarithm and lane sum they print.
-/
import Idealize.ShloMosaic.PureOps.Ideal
import Idealize.ShloMosaic.PureOps.Ideal.Laws
import Idealize.ShloMosaic.Lib.ValueIdx

noncomputable section

namespace Cert.GaussLogProb

open Idealize.ShloMosaic Idealize.ShloMosaic.ValueIdx

/-- One lane's contribution: the squared deviation over the variance, plus the variance's logarithm. -/
def laneTerm (mu sg y : EReal) : EReal :=
  Ideal.div ((y - mu) * (y - mu)) sg + Ideal.log sg

/-- A sample's log-probability from its 2048 lanes: -½ · (Σ_k laneTerm + C). -/
def rowLogProb (mu sg y : Fin 2048 → EReal) : EReal :=
  Ideal.ofBits .f32 0xBF000000#32
    * ((∑ k : Fin 2048, laneTerm (mu k) (sg k) (y k)) + Ideal.ofBits .f32 0x456B3F8E#32)

/-- Row `r` of a [R, 2048] array as a function of the lane. -/
abbrev rowOf {R : Nat} (x : FVec Ideal ⟨2, ![R, 2048]⟩ .f32) (r : Fin R) : Fin 2048 → EReal :=
  fun k => x (ix2 r k)

/-- What the programs do to the last sample's log-probability, as one function of a rank-0 array:
    negate, divide by 2048, divide by 4096. Both programs end with these three host operations on the
    same two literals, so the proof never looks inside. -/
def scalarTail (s : FVec Ideal ⟨0, ![]⟩ .f32) : FVec Ideal ⟨0, ![]⟩ .f32 :=
  Host.divf (F := Ideal)
    (Host.divf (F := Ideal) (Host.negf (F := Ideal) s) (constant (F := Ideal) ⟨0, ![]⟩ .f32 0x45000000#32))
    (constant (F := Ideal) ⟨0, ![]⟩ .f32 0x45800000#32)

/-- The certificate's result: the tail applied to the last row's log-probability. -/
def loss (mu sg y : FVec Ideal ⟨2, ![4096, 2048]⟩ .f32) : FVec Ideal ⟨0, ![]⟩ .f32 :=
  scalarTail fun _ => rowLogProb (rowOf mu 4095) (rowOf sg 4095) (rowOf y 4095)

end Cert.GaussLogProb

end
-- ==== Proof.KernelRow.lean ====
/-
  One block of the kernel, read a row at a time.

  The kernel's body takes a [256, 2048] block of each of μ (window 0), σ (window 1) and y (window 2) and
  stores a [256, 1] column. Entry (p, 0) of that column is the log-probability of row p of the three
  blocks: the elementwise chain (y − μ)² / σ + log σ is summed along the lanes of row p, the lane sum is
  re-laid from [256] to [256, 1] keeping the row, and C is added and -½ multiplied in, row by row.
  At the ideal instance the lane reduction with the zero accumulator is the plain sum over the 2048
  lanes, so the entry is `rowLogProb` of that row — the very term the specification names.
-/
import proofs.«128694_j49237505081886_1_alg».proof.Proof.Gen.KernelIdeal.Skeleton
import proofs.«128694_j49237505081886_1_alg».proof.Proof.Spec
import Idealize.ShloMosaic.Lib.ValueIdx
import Idealize.ShloMosaic.Lib.Pipeline.Value
import Idealize.ShloMosaic.PureOps.Ideal.Laws

noncomputable section

namespace Cert.KernelIdeal.Row

open Idealize.ShloMosaic Idealize.ShloMosaic.ValueIdx
open Cert.KernelIdeal Cert.KernelIdeal.Gen Cert.GaussLogProb

/-- Re-laying a [256] vector as a [256, 1] column keeps the row: position p of the vector and position
    (p, 0) of the column are the same row-major position. -/
theorem column_apply [Facts] (v : FVec Ideal S256 .f32) (p : Fin 256) (q : Fin 1) :
    shapeCast S256x1 v shapeCasts_S256_S256x1 (ix2 p q) = v (ix1 p) := by
  refine shapeCast_apply v shapeCasts_S256_S256x1 (ix2 p q) (ix1 p) ?_
  rw [Shape.rowMajor_val_two, Shape.rowMajor_val_one]
  show p.val = p.val * 1 + q.val
  have := q.isLt
  omega

/-- The lane reduction of a [256, 2048] block from the zero accumulator, at row p, is the sum of that
    row's 2048 entries. -/
theorem laneSum_apply [Facts] (v : FVec Ideal S256x2048 .f32) (p : Fin 256) :
    multiReduction (F := Ideal) .add [1] S256 v 0x00000000#32 reduces_S256x2048_S256 (.inl rfl) rfl (ix1 p)
      = ∑ k : Fin 2048, v (ix2 p k) := by
  refine (Ideal.multiReduction_add_single v _ reduces_S256x2048_S256 (.inl rfl) rfl (ix1 p)).trans ?_
  refine Finset.sum_congr rfl fun k _ => congrArg v (funext fun a => Fin.ext ?_)
  match a with
  | ⟨0, _⟩ => rfl
  | ⟨1, _⟩ => rfl

/-- Entry (p, 0) of the column the body stores is the log-probability of row p of its three blocks. -/
theorem payload_row [Facts] (x0 x1 x2 : Vec Ideal S256x2048 .f32) (p : Fin 256) (q : Fin 1) :
    k0_pay1 (F := Ideal) x0 x1 x2 (ix2 p q) = rowLogProb (rowOf x0 p) (rowOf x1 p) (rowOf x2 p) := by
  unfold k0_pay1 rowLogProb
  dsimp only
  rw [mulf_apply, addf_apply, broadcast_apply, broadcast_apply, column_apply, laneSum_apply]
  rfl

end Cert.KernelIdeal.Row

end
-- ==== Proof.KernelValue.lean ====
/-
  The kernel's result, read off its frame run.

  The grid has 16 points; point t stages rows 256·t … 256·t + 255 of μ, σ and y (block index (t, 0) of each
  [4096, 2048] array) and writes back block (t, 0) of the [4096, 1] result column. By the row reading of the
  body, what point t writes back is block t of ONE column: the column whose entry (r, 0) is `rowLogProb` of
  row r of the three arrays. Row 4095 lies in the last point's block, so after the run the column's entry
  (4095, 0) is the last row's log-probability. The host lines after the region slice that entry out, re-lay
  it as a rank-0 array and apply the scalar tail: the result is `loss`.
-/
import proofs.«128694_j49237505081886_1_alg».proof.Proof.Gen.KernelIdeal.Frame
import proofs.«128694_j49237505081886_1_alg».proof.Proof.KernelRow
import proofs.«128694_j49237505081886_1_alg».proof.Proof.Spec
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Idealize.ShloMosaic.ValueIdx
open Cert.KernelIdeal Cert.KernelIdeal.Gen Cert.GaussLogProb

variable (m : (ℓ : Loc nD τ sig) → Buf (Elt Ideal) ℓ) (ρ : Dev nD → PrngReg)

theorem hz : (![0, 0] : Fin 2 → Nat) = fun _ => 0 := funext fun a => by fin_cases a <;> rfl

/-- The three argument arrays as the region finds them, at their literal type. -/
abbrev muArr (c : Dev nD) : FVec Ideal S4096x2048 .f32 := V m c main_arg0
abbrev sgArr (c : Dev nD) : FVec Ideal S4096x2048 .f32 := V m c main_arg1
abbrev yArr (c : Dev nD) : FVec Ideal S4096x2048 .f32 := V m c main_arg2

/-- The column of all 4096 log-probabilities: entry (r, 0) is `rowLogProb` of row r. -/
def logProbCol (c : Dev nD) : FVec Ideal S4096x1 .f32 := fun i =>
  rowLogProb (rowOf (muArr m c) (i 0)) (rowOf (sgArr m c) (i 0)) (rowOf (yArr m c) (i 0))

/-- The printed index maps, decided over the 16 points: every window's block index at point t is (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of the block of μ staged at point t is row 256·t + p of μ. -/
theorem muBlock_row (c : Dev nD) (t : Fin cfg0.N) (p : Fin 256) (r : Fin 4096) (hr : r.val = t.val * 256 + p.val) :
    rowOf (iblk m c 0 t : Vec Ideal S256x2048 .f32) p = rowOf (muArr m c) r := by
  obtain ⟨e0, e1, -⟩ := idx_facts t
  funext k
  show V m c main_arg0 (((cfg0.win 0).blk t).view.emb (ix2 p k)) = V m c main_arg0 (ix2 r k)
  refine congrArg _ (funext fun a => Fin.ext ?_)
  match a with
  | ⟨0, _⟩ => show win0_0.index t (0 : Fin 2) * 256 + 1 * p.val = r.val; rw [e0, hr]; omega
  | ⟨1, _⟩ => show win0_0.index t (1 : Fin 2) * 2048 + 1 * k.val = k.val; rw [e1]; omega

/-- The same for σ. -/
theorem sgBlock_row (c : Dev nD) (t : Fin cfg0.N) (p : Fin 256) (r : Fin 4096) (hr : r.val = t.val * 256 + p.val) :
    rowOf (iblk m c 1 t : Vec Ideal S256x2048 .f32) p = rowOf (sgArr m c) r := by
  obtain ⟨-, -, e0, e1, -⟩ := idx_facts t
  funext k
  show V m c main_arg1 (((cfg0.win 1).blk t).view.emb (ix2 p k)) = V m c main_arg1 (ix2 r k)
  refine congrArg _ (funext fun a => Fin.ext ?_)
  match a with
  | ⟨0, _⟩ => show win0_1.index t (0 : Fin 2) * 256 + 1 * p.val = r.val; rw [e0, hr]; omega
  | ⟨1, _⟩ => show win0_1.index t (1 : Fin 2) * 2048 + 1 * k.val = k.val; rw [e1]; omega

/-- The same for y. -/
theorem yBlock_row (c : Dev nD) (t : Fin cfg0.N) (p : Fin 256) (r : Fin 4096) (hr : r.val = t.val * 256 + p.val) :
    rowOf (iblk m c 2 t : Vec Ideal S256x2048 .f32) p = rowOf (yArr m c) r := by
  obtain ⟨-, -, -, -, e0, e1, -⟩ := idx_facts t
  funext k
  show V m c main_arg2 (((cfg0.win 2).blk t).view.emb (ix2 p k)) = V m c main_arg2 (ix2 r k)
  refine congrArg _ (funext fun a => Fin.ext ?_)
  match a with
  | ⟨0, _⟩ => show win0_2.index t (0 : Fin 2) * 256 + 1 * p.val = r.val; rw [e0, hr]; omega
  | ⟨1, _⟩ => show win0_2.index t (1 : Fin 2) * 2048 + 1 * k.val = k.val; rw [e1]; omega

/-- What point t writes back is block t of the column of log-probabilities. -/
theorem flushed_eq (c : Dev nD) (t : Fin cfg0.N) :
    (dats (F := Ideal) m 0 c).flushed 3 t = ((cfg0.win 3).blk t).view.read (Elt Ideal) (logProbCol m c) := by
  show (cfg0.win 3).cut (grid0.coords t) ((dats m 0 c).after 3 t) = _
  rw [after0_3]
  unfold out0_3
  rw [View.canon_unit_zero hz]
  simp only [View.ld_unit_zero (S := S256x2048) hz]
  obtain ⟨-, -, -, -, -, -, e0, e1⟩ := idx_facts t
  funext j
  obtain ⟨p, q, rfl⟩ : ∃ (p : Fin 256) (q : Fin 1), j = ix2 p q := ⟨j 0, j 1, eq_ix2 j⟩
  show k0_pay1 (F := Ideal) (iblk m c 0 t) (iblk m c 1 t) (iblk m c 2 t) (ix2 p q)
    = logProbCol m c (((cfg0.win 3).blk t).view.emb (ix2 p q))
  refine (Row.payload_row (iblk m c 0 t) (iblk m c 1 t) (iblk m c 2 t) p q).trans ?_
  have hr : ((((cfg0.win 3).blk t).view.emb (ix2 p q)) 0).val = t.val * 256 + p.val := by
    show win0_3.index t (0 : Fin 2) * 256 + 1 * p.val = _
    rw [e0]; omega
  unfold logProbCol
  exact congr (congr (congrArg rowLogProb (muBlock_row m c t p _ hr)) (sgBlock_row m c t p _ hr))
    (yBlock_row m c t p _ hr)

/-- An index of the column is in point t's block iff each coordinate is in the block's range on its axis. -/
theorem mem_block (t : Fin cfg0.N) (i : S4096x1.Idx) :
    i ∈ ((cfg0.win 3).blk t).view.set
      ↔ ∀ a : Fin 2, win0_3.index t a * S256x1.size a ≤ (i a).val ∧ (i a).val < win0_3.index t a * S256x1.size a + S256x1.size a := by
  show i ∈ ((View.whole main_v0).slice (win0_3.rect t)).set ↔ _
  rw [View.set_slice_whole, Rect.mem_set_unit]
  exact Iff.rfl

/-- Row 4095 is in the last point's block: 15 · 256 ≤ 4095 < 16 · 256. -/
theorem lastRow_mem : (ix2 (4095 : Fin 4096) (0 : Fin 1) : S4096x1.Idx) ∈ ((cfg0.win 3).blk t0_15).view.set := by
  rw [mem_block]
  obtain ⟨-, -, -, -, -, -, e0, e1⟩ := idx_facts t0_15
  intro a
  match a with
  | ⟨0, _⟩ =>
    show win0_3.index t0_15 (0 : Fin 2) * 256 ≤ 4095 ∧ 4095 < win0_3.index t0_15 (0 : Fin 2) * 256 + 256
    rw [e0]; show 15 * 256 ≤ 4095 ∧ 4095 < 15 * 256 + 256; omega
  | ⟨1, _⟩ =>
    show win0_3.index t0_15 (1 : Fin 2) * 1 ≤ 0 ∧ 0 < win0_3.index t0_15 (1 : Fin 2) * 1 + 1
    rw [e1]; omega

/-- After the run the column's entry (4095, 0) is the last row's log-probability. -/
theorem lastRow_eq (c : Dev nD) :
    (dats (F := Ideal) m 0 c).arrAt 3 cfg0.N (ix2 (4095 : Fin 4096) (0 : Fin 1))
      = rowLogProb (rowOf (muArr m c) 4095) (rowOf (sgArr m c) 4095) (rowOf (yArr m c) 4095) :=
  (dats (F := Ideal) m 0 c).arrAt_apply_of_mem 3 (logProbCol m c) (fun t _ => flushed_eq m c t) cfg0.N t0_15
    (ix2 (4095 : Fin 4096) (0 : Fin 1)) t0_15.isLt (flush0_3 t0_15) lastRow_mem

/-- What the host lines after the region find in the result column's buffer: the column after the run. -/
theorem column_after (c : Dev nD) :
    Pipeline.withArrays (cfgs 0).spec c (V0 m c) (fun w => (dats (F := Ideal) m 0 c).arrAt w (cfgs 0).N)
        (Proc.devRef .tc main_v0)
      = (dats (F := Ideal) m 0 c).arrAt 3 cfg0.N :=
  Pipeline.withArrays_arr spec0 winFacts0.arr_inj c _ _ 3

/-- The host lines after the region, read: the result buffer ends at `loss` of the argument arrays. -/
theorem tail_eq (c : Dev nD) :
    Pipeline.afterTail₀ cfgs (dats (F := Ideal) m) 0 (V0 m) [hostOps1] c main_v5
      = loss (muArr m c) (sgArr m c) (yArr m c) := by
  unfold Pipeline.afterTail₀
  show StableHlo.after hostOps1 _ (Proc.devRef .tc main_v5) = _
  after_results
  rw [column_after]
  unfold loss
  refine congrArg scalarTail (funext fun i => ?_)
  show shapeCast S_ (extractStridedSlice S1x1 ![4095, 0] ((dats (F := Ideal) m 0 c).arrAt 3 cfg0.N)
      slices_S4096x1_S1x1_4095_0) shapeCasts_S1x1_S_ i = _
  rw [shapeCast_apply _ shapeCasts_S1x1_S_ i (ix2 (0 : Fin 1) (0 : Fin 1)) (by
        rw [Shape.rowMajor_val_two]
        show (0 : Nat) * 1 + 0 = (Shape.rowMajorPi _ i).val
        rw [Shape.rowMajorPi_zero]),
    extractStridedSlice_apply ![4095, 0] _ slices_S4096x1_S1x1_4095_0 (ix2 (0 : Fin 1) (0 : Fin 1))
      (ix2 (4095 : Fin 4096) (0 : Fin 1)) (fun a => by match a with | ⟨0, _⟩ => rfl | ⟨1, _⟩ => rfl)]
  exact lastRow_eq m c

/-- The kernel's run, read: every weakly fair execution terminates with the result buffer at `loss` of the
    three argument arrays, and the arguments unchanged. -/
theorem run : θ_run defs (onTc (τ := τ) (main (F := Ideal))) ⟨m, fun _ => 0, ρ⟩ fun r => ∀ c : Dev nD,
      r.2.mem ((c.tc : Thread nD τ).loc main_v5)
        = loss (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v5 (Pipeline.mem_restRefs_of main_v5 rfl (by decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c)))⟩)
    (run_main m ρ)

end Cert.KernelIdeal.Hand

end
-- ==== Proof.RefValue.lean ====
/-
  The reference computes `loss`.

  The reference forms the elementwise chain (y − μ)² / σ + log σ on the whole [4096, 2048] arrays, sums
  each row from the initial value 0, adds C, multiplies by -½, slices out entry 4095 of the resulting
  [4096] vector, re-lays that one entry as a rank-0 array, and applies the scalar tail. Entry r of the
  [4096] vector is `rowLogProb` of row r — the host sum is 0 + Σ_k, and 0 + s = s on the extended reals —
  so the sliced entry is the last row's, and the result is `loss`.
-/
import proofs.«128694_j49237505081886_1_alg».proof.Proof.Gen.ReferenceIdeal.Read
import proofs.«128694_j49237505081886_1_alg».proof.Proof.Spec
import Idealize.ShloMosaic.Lib.ValueIdx
import Idealize.ShloMosaic.Lib.Pipeline.Value
import Idealize.ShloMosaic.PureOps.Ideal.Laws

noncomputable section

namespace Cert.ReferenceIdeal.Hand

open Idealize.ShloMosaic Idealize.ShloMosaic.ValueIdx
open Cert.ReferenceIdeal Cert.ReferenceIdeal.Gen Cert.ReferenceIdeal.Read Cert.GaussLogProb

/-- The source index of lane k of row r, as the host sum names it, is (r, k). -/
theorem sumIdx_eq (r : Fin 4096) (k : Fin 2048) : idx_main_v5 (ix1 r) k = ix2 r k :=
  funext fun a => Fin.ext (by match a with | ⟨0, _⟩ => rfl | ⟨1, _⟩ => rfl)

/-- Entry r of the reference's [4096] vector of log-probabilities is `rowLogProb` of row r. -/
theorem logProbs_apply [Facts] (x0 x1 x2 : FVec Ideal S4096x2048 .f32) (r : Fin 4096) :
    val_main_v9 (F := Ideal) x0 x1 x2 (ix1 r) = rowLogProb (rowOf x0 r) (rowOf x1 r) (rowOf x2 r) := by
  rw [val_main_v9_apply, val_main_v8_apply, val_main_cst_1_apply, val_main_v7_apply, val_main_v5_apply,
    val_main_v6_apply, val_main_cst_0_apply, val_main_cst_apply]
  unfold rowLogProb
  simp only [sumIdx_eq, Ideal.ofBits_def, Ideal.ofBits_zero_f32, zero_add, Ideal.mulf_def, Ideal.addf_def]
  rfl

/-- The slice [4095:4096] of the vector, re-laid as a rank-0 array, is its entry 4095. -/
theorem lastEntry_apply [Facts] (x0 x1 x2 : FVec Ideal S4096x2048 .f32) (i : S_.Idx) :
    val_main_v11 (F := Ideal) x0 x1 x2 i = val_main_v9 (F := Ideal) x0 x1 x2 (ix1 4095) := by
  unfold val_main_v11
  rw [shapeCast_apply (val_main_v10 (F := Ideal) x0 x1 x2) shapeCasts_S1_S_ i (ix1 0) (by
        rw [Shape.rowMajor_val_one]
        show (0 : Nat) = (Shape.rowMajorPi _ i).val
        rw [Shape.rowMajorPi_zero]),
    val_main_v10_apply]
  exact congrArg _ (funext fun a => Fin.ext (by match a with | ⟨0, _⟩ => rfl))

/-- The reference's result is `loss` of its three arguments (μ, σ, y in that order). -/
theorem result_eq [Facts] (x0 x1 x2 : FVec Ideal S4096x2048 .f32) :
    val_main_v14 (F := Ideal) x0 x1 x2 = loss x0 x1 x2 := by
  show scalarTail (val_main_v11 (F := Ideal) x0 x1 x2) = scalarTail _
  refine congrArg scalarTail (funext fun i => ?_)
  rw [lastEntry_apply, logProbs_apply]

end Cert.ReferenceIdeal.Hand

end
-- ==== Proof.lean ====
/-
  A diagonal-Gaussian log-probability loss, tiled kernel against whole-array reference, over the extended reals.

  Inputs: means μ, variances σ and observations y, each f32[4096, 2048]; one row is one sample. For a sample
  with lanes k = 0 … 2047 put

      ℓ = -½ · ( Σ_k ( (y_k − μ_k)² / σ_k + log σ_k ) + C ),

  C being the single f32 word 0x456B3F8E (2048 · log 2π as both programs carry it). Both programs return the
  rank-0 array  − ℓ(last row) / 2048 / 4096  (`GaussLogProb.loss`).

  The kernel walks a grid of 16 points; point t takes rows 256·t … 256·t + 255 of the three arrays, forms the
  elementwise chain, sums each row along its lanes, adds C, multiplies by -½, and writes the 256 values back as
  block t of a [4096, 1] column; the host then slices entry (4095, 0), re-lays it as rank 0, negates and divides
  twice. The reference does the same on the whole arrays with a host sum per row into a [4096] vector and slices
  entry 4095. Read at the ideal instance the two agree operation for operation: the quotient, the logarithm and
  the lane sum each have two spellings (kernel and host) that are one function there, the host sum starts from
  the literal 0 and 0 + s = s, and the tiling only decides WHICH grid point writes a row — row 4095 is in the
  last point's block. No law that could fail at ±∞ is used, so the precondition (finite inputs) is never opened.

  The modules: `Spec` names ℓ and the result; `KernelRow` reads one block of the kernel's body a row at a time;
  `KernelValue` reads the kernel's run (block t of the column, the last row, the host lines after the region);
  `RefValue` reads the reference's run. The three frames are the generated ones (the reference's is its run with
  the result dropped); the idealization rewrote no operation, so `preserves` is `True`.
-/
import proofs.«128694_j49237505081886_1_alg».proof.Defs
import proofs.«128694_j49237505081886_1_alg».proof.Proof.Gen.Kernel
import proofs.«128694_j49237505081886_1_alg».proof.Proof.Gen.Kernel.Skeleton
import proofs.«128694_j49237505081886_1_alg».proof.Proof.Gen.Kernel.Launch
import proofs.«128694_j49237505081886_1_alg».proof.Proof.Gen.Kernel.Points
import proofs.«128694_j49237505081886_1_alg».proof.Proof.Gen.Kernel.Frame
import proofs.«128694_j49237505081886_1_alg».proof.Proof.Gen.KernelIdeal
import proofs.«128694_j49237505081886_1_alg».proof.Proof.Gen.KernelIdeal.Skeleton
import proofs.«128694_j49237505081886_1_alg».proof.Proof.Gen.KernelIdeal.Launch
import proofs.«128694_j49237505081886_1_alg».proof.Proof.Gen.KernelIdeal.Points
import proofs.«128694_j49237505081886_1_alg».proof.Proof.Gen.KernelIdeal.Frame
import proofs.«128694_j49237505081886_1_alg».proof.Proof.Gen.ReferenceIdeal
import proofs.«128694_j49237505081886_1_alg».proof.Proof.Gen.ReferenceIdeal.Run
import proofs.«128694_j49237505081886_1_alg».proof.Proof.Gen.ReferenceIdeal.Read
import proofs.«128694_j49237505081886_1_alg».proof.Proof.Gen.Pre_finite_inputs
import proofs.«128694_j49237505081886_1_alg».proof.Proof.Spec
import proofs.«128694_j49237505081886_1_alg».proof.Proof.KernelRow
import proofs.«128694_j49237505081886_1_alg».proof.Proof.KernelValue
import proofs.«128694_j49237505081886_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on μ, σ and y both programs end with the result buffer at `loss` of those arrays:
    the kernel by its run read block by block, the reference by its run read stage by stage. -/
theorem algebraic : Cert.algebraic_KernelIdeal_ReferenceIdeal := by
  intro m ρ m' ρ' _ hagree
  refine ⟨fun c => Cert.GaussLogProb.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.Hand.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
